-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S8192x1024_S4x2048x1024 : S8192x1024.ShapeCasts S4x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .i32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)

variable [Facts₀]

class Facts : Prop extends Facts₀ where

variable [Facts]
-- ==== Proof.LayerNormRow.lean ====
/-
  Layer normalisation of one row of 1024 entries over the extended reals.

  The mean of the row is its sum divided by 1024; the variance is the sum of the squared deviations from that mean,
  divided by 1024 again (the population variance); an entry `x` of the row, with its scale `g` and shift `b`, goes to
  `((x - mean) * (variance + ε)^(-1/2)) * g + b`. The divisor and `ε` are kept as the words both programs write:
  the same word on both sides is never evaluated, except where one side computes the divisor as `1024 - 0` and tests
  it against zero, which needs the word of 1024.0 to denote the real 1024.
-/
import Idealize.ShloMosaic.PureOps.Ideal
import Idealize.ShloMosaic.PureOps.Ideal.Laws
import Idealize.ShloMosaic.Lib.ValueIdx

noncomputable section

namespace Cert.LayerNormRow

open Idealize.ShloMosaic Idealize.ShloMosaic.ValueIdx

/-- The mean of a row: its sum over the value of the word of 1024.0. -/
def rowMean (row : Fin 1024 → EReal) : EReal :=
  Ideal.div (∑ k : Fin 1024, row k) (Ideal.ofBits .f32 0x44800000#32)

/-- The population variance of a row: the sum of the squared deviations from the mean, over the same divisor. -/
def rowVar (row : Fin 1024 → EReal) : EReal :=
  Ideal.div (∑ k : Fin 1024, (row k - rowMean row) * (row k - rowMean row)) (Ideal.ofBits .f32 0x44800000#32)

/-- One entry of the normalised row, scaled and shifted: `((x - mean) * rsqrt (variance + ε)) * g + b`. -/
def rowLN (row : Fin 1024 → EReal) (x g b : EReal) : EReal :=
  ((x - rowMean row) * Ideal.rsqrt (rowVar row + Ideal.ofBits .f32 0x36A7C5AC#32)) * g + b

/-- Layer normalisation along the rows of an `[8192, 1024]` matrix: entry `(r, q)` from row `r`. -/
def lnMat (X G B : (⟨2, ![8192, 1024]⟩ : Shape).Idx → EReal) : (⟨2, ![8192, 1024]⟩ : Shape).Idx → EReal := fun i =>
  rowLN (fun k => X (ix2 (⟨(i 0).val, (i 0).isLt⟩ : Fin 8192) k)) (X i) (G i) (B i)

theorem lnMat_apply (X G B : (⟨2, ![8192, 1024]⟩ : Shape).Idx → EReal) (r : Fin 8192) (q : Fin 1024) :
    lnMat X G B (ix2 r q) = rowLN (fun k => X (ix2 r k)) (X (ix2 r q)) (G (ix2 r q)) (B (ix2 r q)) := rfl

/-- Layer normalisation along the last axis of a `[4, 2048, 1024]` array: entry `(a, s, q)` from row `(a, s)`. -/
def lnArr (X G B : (⟨3, ![4, 2048, 1024]⟩ : Shape).Idx → EReal) : (⟨3, ![4, 2048, 1024]⟩ : Shape).Idx → EReal := fun i =>
  rowLN (fun k => X (ix3 (⟨(i 0).val, (i 0).isLt⟩ : Fin 4) (⟨(i 1).val, (i 1).isLt⟩ : Fin 2048) k)) (X i) (G i) (B i)

theorem lnArr_apply (X G B : (⟨3, ![4, 2048, 1024]⟩ : Shape).Idx → EReal) (a : Fin 4) (s : Fin 2048) (q : Fin 1024) :
    lnArr X G B (ix3 a s q) = rowLN (fun k => X (ix3 a s k)) (X (ix3 a s q)) (G (ix3 a s q)) (B (ix3 a s q)) := rfl

/-- An array that reads, at every `(a, s, q)`, the layer normalisation of row `(a, s)` at column `q` is `lnArr`. -/
theorem eq_lnArr_of_apply (f X G B : (⟨3, ![4, 2048, 1024]⟩ : Shape).Idx → EReal)
    (h : ∀ (a : Fin 4) (s : Fin 2048) (q : Fin 1024),
      f (ix3 a s q) = rowLN (fun k => X (ix3 a s k)) (X (ix3 a s q)) (G (ix3 a s q)) (B (ix3 a s q))) :
    f = lnArr X G B := by
  funext i
  obtain ⟨a, s, q, rfl⟩ : ∃ (a : Fin 4) (s : Fin 2048) (q : Fin 1024), i = ix3 a s q := ⟨i 0, i 1, i 2, eq_ix3 i⟩
  exact (h a s q).trans (lnArr_apply X G B a s q).symm

/-- The word of 1024.0 denotes the real 1024. -/
theorem ofBits_1024 : Ideal.ofBits .f32 0x44800000#32 = ((1024 : ℝ) : EReal) := by
  simp [Ideal.ofBits, Ideal.ieee, -EReal.coe_mul]
  norm_num

/-- The count of entries less the integer zero (no degrees of freedom taken off) is the count. -/
theorem count_sub_zero :
    Ideal.ofBits .f32 0x44800000#32 - ((((0#32 : BitVec 32).toInt : ℤ) : ℝ) : EReal) = Ideal.ofBits .f32 0x44800000#32 := by
  have h0 : (0#32 : BitVec 32).toInt = 0 := by decide
  rw [h0, Int.cast_zero, EReal.coe_zero, sub_zero]

/-- The count is above zero: the comparison answers the bit 1. -/
theorem count_pos : Ideal.cmp .ogt (Ideal.ofBits .f32 0x44800000#32) (Ideal.ofBits .f32 0x00000000#32) = 1#1 := by
  rw [Ideal.ofBits_zero_f32, ofBits_1024]
  have h : (0 : EReal) < ((1024 : ℝ) : EReal) := by
    rw [← EReal.coe_zero]
    exact EReal.coe_lt_coe_iff.mpr (by norm_num)
  unfold Ideal.cmp
  simp [h]

end Cert.LayerNormRow

end
-- ==== Proof.LibRowForms.lean ====
/-
  Row sums and the keepdims layout steps of a normalisation over the last axis, read at an index.

  A sum over the last axis of an `[R, D]` vector, or of an `[A, B, D]` host array, is at the exact instance the
  finite sum of that row's entries. A `[A, B]` array laid out as an `[A, B, 1]` column keeps its entries; an
  `[A, B, 1]` column stretched along the last axis repeats its entry; a scalar stretched to any shape reads the
  scalar. A `[A, B, C]` array recast to `[A * B, C]` keeps row-major order, so row `a * B + b` of the matrix is
  row `(a, b)` of the array, and back.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRowForms

open Idealize.ShloMosaic Idealize.ShloMosaic.ValueIdx

/-- A lane sum over the last axis of an `[R, D]` vector: entry `p` is the sum of row `p`. -/
theorem multiReduction_add_rows {R D : Nat} {φ : FTy} (v : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ v acc h hφ hacc (ix1 p) = ∑ k : Fin D, v (ix2 p k) := by
  rw [Ideal.multiReduction_add_single]
  refine Finset.sum_congr rfl fun k _ => congrArg v ?_
  funext c
  match c with
  | ⟨0, _⟩ => exact Fin.ext rfl
  | ⟨1, _⟩ => exact Fin.ext rfl

/-- A host sum over the last axis of an `[A, B, D]` array from a scalar initial value: entry `(a, b)` is the initial
    value plus the sum of row `(a, b)`. -/
theorem hostReduceAdd_rows3 {A B D : Nat} {φ : FTy} (h : (⟨3, ![A, B, D]⟩ : Shape).ReducesTo [2] ⟨2, ![A, B]⟩)
    (hu : 0 < (⟨0, ![]⟩ : Shape).numel) (x : FVec Ideal ⟨3, ![A, B, D]⟩ φ) (v : (⟨0, ![]⟩ : Shape).Idx → Ideal φ)
    (a : Fin A) (b : Fin B) :
    Host.reduceAdd (F := Ideal) x v h hu (ix2 a b) = v ix0 + ∑ k : Fin D, x (ix3 a b k) := by
  have hR : (⟨3, ![A, B, D]⟩ : Shape).Reduces [2] ⟨2, ![A, B]⟩ := ⟨h.1, (Nat.zero_lt_two : 0 < 2), h.2⟩
  unfold Host.reduceAdd
  rw [Ideal.hostReduceAdd_def, Ideal.hostReduceAdd_single h hR, congrArg v (eq_ix0 (Shape.Idx.first hu))]
  congr 1
  refine Finset.sum_congr rfl fun k _ => congrArg x ?_
  funext c
  match c with
  | ⟨0, _⟩ => exact Fin.ext rfl
  | ⟨1, _⟩ => exact Fin.ext rfl
  | ⟨2, _⟩ => exact Fin.ext rfl

variable {α : Type}

/-- A scalar stretched to any shape reads the scalar everywhere. -/
theorem broadcastInDim_scalar_apply (t : Shape) (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  congrArg v (eq_ix0 _)

/-- An `[A, B]` array laid out as an `[A, B, 1]` column: entry `(a, b, u)` is entry `(a, b)`. -/
theorem broadcastInDim_ab_ab1_apply {A B : Nat}
    (h : (⟨2, ![A, B]⟩ : Shape).BroadcastsInDim ⟨3, ![A, B, 1]⟩ (![0, 1] : Fin 2 → Fin (⟨3, ![A, B, 1]⟩ : Shape).rank))
    (x : (⟨2, ![A, B]⟩ : Shape).Idx → α) (a : Fin A) (b : Fin B) (u : Fin 1) :
    broadcastInDim ⟨3, ![A, B, 1]⟩ ![0, 1] h x (ix3 a b u) = x (ix2 a b) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- An `[A, B, 1]` column stretched along the last axis: entry `(a, b, c)` is entry `(a, b, 0)`. -/
theorem broadcastInDim_ab1_abc_apply {A B C : Nat}
    (h : (⟨3, ![A, B, 1]⟩ : Shape).BroadcastsInDim ⟨3, ![A, B, C]⟩ (![0, 1, 2] : Fin 3 → Fin (⟨3, ![A, B, C]⟩ : Shape).rank))
    (x : (⟨3, ![A, B, 1]⟩ : Shape).Idx → α) (a : Fin A) (b : Fin B) (c : Fin C) :
    broadcastInDim ⟨3, ![A, B, C]⟩ ![0, 1, 2] h x (ix3 a b c) = x (ix3 a b (0 : Fin 1)) := by
  refine broadcastInDim_apply _ h x _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- An `[A, B, C]` array recast to `[A * B, C]`: row `a * B + b` of the matrix is row `(a, b)` of the array. -/
theorem shapeCast_abc_rc_apply {A B C R : Nat} (x : (⟨3, ![A, B, C]⟩ : Shape).Idx → α)
    (h : (⟨3, ![A, B, C]⟩ : Shape).ShapeCasts ⟨2, ![R, C]⟩) (a : Fin A) (b : Fin B) (c : Fin C) (r : Fin R)
    (hr : r.val = a.val * B + b.val) :
    shapeCast ⟨2, ![R, C]⟩ x h (ix2 r c) = x (ix3 a b c) :=
  shapeCast_apply x h _ _ (by
    rw [Shape.rowMajor_val_three, Shape.rowMajor_val_two]
    show (a.val * B + b.val) * C + c.val = r.val * C + c.val
    rw [hr])

/-- An `[A * B, C]` matrix recast to `[A, B, C]`: row `(a, b)` of the array is row `a * B + b` of the matrix. -/
theorem shapeCast_rc_abc_apply {A B C R : Nat} (x : (⟨2, ![R, C]⟩ : Shape).Idx → α)
    (h : (⟨2, ![R, C]⟩ : Shape).ShapeCasts ⟨3, ![A, B, C]⟩) (a : Fin A) (b : Fin B) (c : Fin C) (r : Fin R)
    (hr : r.val = a.val * B + b.val) :
    shapeCast ⟨3, ![A, B, C]⟩ x h (ix3 a b c) = x (ix2 r c) :=
  shapeCast_apply x h _ _ (by
    rw [Shape.rowMajor_val_three, Shape.rowMajor_val_two]
    show r.val * C + c.val = (a.val * B + b.val) * C + c.val
    rw [hr])

end Cert.LibRowForms

end
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.KernelRow.lean ====
/-
  What the kernel body stores, entry by entry.

  The body loads a `[512, 1024]` block of the input, of the scale and of the shift, and stores one block: the lane sum
  of each row over 1024 is the row's mean, the lane sum of the squared deviations over 1024 its variance, and entry
  `(p, q)` of the stored block is the layer normalisation of row `p` of the input block at column `q`, scaled and shifted
  by the same entry of the other two blocks. The identity shape casts drop out; the `[512]` sums become `[512, 1]`
  columns and are stretched back along the row.
-/
import proofs.«108471_j37855841747141_1_alg».proof.Proof.Gen.KernelIdeal.Skeleton
import proofs.«108471_j37855841747141_1_alg».proof.Proof.LayerNormRow
import proofs.«108471_j37855841747141_1_alg».proof.Proof.LibRowForms
import proofs.«108471_j37855841747141_1_alg».proof.Proof.LibColumnForms
import Idealize.ShloMosaic.Lib.ValueIdx
import Idealize.ShloMosaic.Lib.Pipeline.Value

noncomputable section

namespace Cert.KernelIdeal.Row

open Cert.KernelIdeal Cert.KernelIdeal.Gen Idealize.ShloMosaic Idealize.ShloMosaic.ValueIdx Cert.LayerNormRow
  Cert.LibRowForms Cert.LibColumnForms

/-- The inverse square root of a vector at an index is the inverse square root of the entry. -/
theorem rsqrt_apply {s : Shape} {φ : FTy} (a : FVec Ideal s φ) (i : s.Idx) : rsqrt a i = Ideal.rsqrt (a i) := rfl

/-- The scalar constant a kernel splats denotes what its word denotes. -/
theorem scalar_ofBits (w : BitVec 32) : Scalar.ofBits (F := Ideal) .f32 w = Ideal.ofBits .f32 w := rfl

/-- The lane sum over a block's rows, at row `p`: the sum of that row's 1024 entries. -/
theorem rowsum_apply (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p) = ∑ k : Fin 1024, v (ix2 p k) :=
  multiReduction_add_rows v _ reduces_S512x1024_S512 hφ hacc p

/-- Entry `(p, q)` of the stored block is the layer normalisation of row `p` of the input block at column `q`. -/
theorem pay_apply (x g b : Vec Ideal S512x1024 .f32) (p : Fin 512) (q : Fin 1024) :
    k0_pay1 x g b (ix2 p q)
      = rowLN (fun k => x (ix2 p k)) (x (ix2 p q)) (g (ix2 p q)) (b (ix2 p q)) := by
  unfold k0_pay1
  simp only [shapeCast_self, addf_apply, mulf_apply, subf_apply, divf_apply, rsqrt_apply, broadcast_apply,
    broadcastTo_a1_ab_apply, shapeCast_a_a1_apply, scalar_ofBits]
  rw [rowsum_apply, rowsum_apply]
  simp only [mulf_apply, subf_apply, divf_apply, broadcast_apply, broadcastTo_a1_ab_apply, shapeCast_a_a1_apply]
  rw [rowsum_apply]
  rfl

end Cert.KernelIdeal.Row

end
-- ==== Proof.KernelArray.lean ====
/-
  From the kernel's blocks to its result array.

  Grid point `t` of sixteen reads rows `512 t … 512 t + 511` of the three `[8192, 1024]` matrices and writes the same
  rows of the output matrix, so what it writes back is block `t` of ONE function of the matrices: the layer
  normalisation along rows. The sixteen blocks tile the output, which therefore ends at that function. The matrices
  are the `[4, 2048, 1024]` arguments recast (row `2048 a + s` is row `(a, s)`), and the result is the output matrix
  cast back: entry `(a, s, q)` of the result is the layer normalisation of row `(a, s)` of the input at column `q`.
-/
import proofs.«108471_j37855841747141_1_alg».proof.Proof.Gen.KernelIdeal.Frame
import proofs.«108471_j37855841747141_1_alg».proof.Proof.KernelRow
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Row Idealize.ShloMosaic.ValueIdx Cert.LayerNormRow Cert.LibRowForms

variable (m : (ℓ : Loc nD τ sig) → Buf (Elt Ideal) ℓ) (ρ : Dev nD → PrngReg)

theorem hz : (![0, 0] : Fin 2 → Nat) = fun _ => 0 := funext fun a => by fin_cases a <;> rfl

/-- The three input matrices and the output matrix as the region finds them. -/
abbrev xmat (c : Dev nD) : S8192x1024.Idx → EReal := V m c main_v0
abbrev gmat (c : Dev nD) : S8192x1024.Idx → EReal := V m c main_v1
abbrev bmat (c : Dev nD) : S8192x1024.Idx → EReal := V m c main_v2

/-- The printed index maps, decided over the sixteen points: every window is at block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input window's block at point `t` is rows `512 t …` of the input matrix. -/
theorem iblk0_apply (c : Dev nD) (t : Fin cfg0.N) (x : S512x1024.Idx) (k : S8192x1024.Idx)
    (hk0 : (k 0).val = 512 * t.val + (x 0).val) (hk1 : (k 1).val = (x 1).val) :
    (iblk m c 0 t : Vec Ideal S512x1024 .f32) x = xmat m c k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The scale window's block at point `t` is the same rows of the scale matrix. -/
theorem iblk1_apply (c : Dev nD) (t : Fin cfg0.N) (x : S512x1024.Idx) (k : S8192x1024.Idx)
    (hk0 : (k 0).val = 512 * t.val + (x 0).val) (hk1 : (k 1).val = (x 1).val) :
    (iblk m c 1 t : Vec Ideal S512x1024 .f32) x = gmat m c k := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 512 + 1 * (x 0).val = (k 0).val; rw [e0, hk0]; omega
  | ⟨1, _⟩ => show win0_1.index t 1 * 1024 + 1 * (x 1).val = (k 1).val; rw [e1, hk1]; omega

/-- The shift window's block at point `t` is the same rows of the shift matrix. -/
theorem iblk2_apply (c : Dev nD) (t : Fin cfg0.N) (x : S512x1024.Idx) (k : S8192x1024.Idx)
    (hk0 : (k 0).val = 512 * t.val + (x 0).val) (hk1 : (k 1).val = (x 1).val) :
    (iblk m c 2 t : Vec Ideal S512x1024 .f32) x = bmat m c k := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 512 + 1 * (x 0).val = (k 0).val; rw [e0, hk0]; omega
  | ⟨1, _⟩ => show win0_2.index t 1 * 1024 + 1 * (x 1).val = (k 1).val; rw [e1, hk1]; omega

/-- What the body stores at point `t`, at `(p, q)`: the layer normalisation of row `512 t + p` of the input matrix at
    column `q`, with the same entry of the scale and shift matrices. -/
theorem block_entry (c : Dev nD) (t : Fin cfg0.N) (p : Fin 512) (q : Fin 1024) (r : Fin 8192)
    (hr : r.val = 512 * t.val + p.val) :
    k0_pay1 (iblk m c 0 t : Vec Ideal S512x1024 .f32) (iblk m c 1 t : Vec Ideal S512x1024 .f32)
        (iblk m c 2 t : Vec Ideal S512x1024 .f32) (ix2 p q)
      = lnMat (xmat m c) (gmat m c) (bmat m c) (ix2 r q) := by
  refine (pay_apply _ _ _ p q).trans ?_
  rw [lnMat_apply]
  have h0 : ∀ k : Fin 1024, (iblk m c 0 t : Vec Ideal S512x1024 .f32) (ix2 p k) = xmat m c (ix2 r k) :=
    fun k => iblk0_apply m c t (ix2 p k) (ix2 r k) hr rfl
  have h1 : (iblk m c 1 t : Vec Ideal S512x1024 .f32) (ix2 p q) = gmat m c (ix2 r q) :=
    iblk1_apply m c t (ix2 p q) (ix2 r q) hr rfl
  have h2 : (iblk m c 2 t : Vec Ideal S512x1024 .f32) (ix2 p q) = bmat m c (ix2 r q) :=
    iblk2_apply m c t (ix2 p q) (ix2 r q) hr rfl
  rw [h1, h2, h0 q, funext h0]

/-- WHAT POINT `t` WRITES BACK is block `t` of the row-wise layer normalisation of the three matrices. -/
theorem flushed_eq (c : Dev nD) (t : Fin cfg0.N) :
    (dats m 0 c).flushed 3 t
      = ((cfg0.win 3).blk t).view.read (Elt Ideal) (lnMat (xmat m c) (gmat m c) (bmat m c)) := by
  show (cfg0.win 3).cut (grid0.coords t) ((dats m 0 c).after 3 t) = _
  rw [after0_3]
  unfold out0_3
  rw [View.canon_unit_zero hz]
  simp only [View.ld_unit_zero (S := S512x1024) hz]
  obtain ⟨-, -, -, -, -, -, e0, e1⟩ := idx_facts t
  show (k0_pay1 (iblk m c 0 t : Vec Ideal S512x1024 .f32) (iblk m c 1 t : Vec Ideal S512x1024 .f32)
      (iblk m c 2 t : Vec Ideal S512x1024 .f32) : S512x1024.Idx → EReal)
    = fun y : S512x1024.Idx => lnMat (xmat m c) (gmat m c) (bmat m c) (((cfg0.win 3).blk t).view.emb y)
  funext y
  obtain ⟨p, q, rfl⟩ : ∃ (p : Fin 512) (q : Fin 1024), y = ix2 p q := ⟨y 0, y 1, eq_ix2 y⟩
  have ht : t.val < 16 := by have h1 := t.isLt; have hN : cfg0.N = 16 := N_0; omega
  refine (block_entry m c t p q ⟨512 * t.val + p.val, by have := p.isLt; omega⟩ rfl).trans ?_
  refine congrArg (lnMat (xmat m c) (gmat m c) (bmat m c)) ?_
  funext a
  apply Fin.ext
  match a with
  | ⟨0, _⟩ => show 512 * t.val + p.val = win0_3.index t 0 * 512 + 1 * p.val; rw [e0]; omega
  | ⟨1, _⟩ => show q.val = win0_3.index t 1 * 1024 + 1 * q.val; rw [e1]; omega

/-- An index of the output matrix is in point `t`'s block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every row of the output matrix is in some point's block: row `r` in point `r / 512`'s. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  refine ⟨⟨(i 0).val / 512, by rw [hN]; omega⟩, flush0_3 _, ?_⟩
  rw [mem_blk]
  obtain ⟨-, -, -, -, -, -, e0, e1⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 1024 ≤ (i 1).val ∧ (i 1).val < win0_3.index _ (1 : Fin 2) * 1024 + 1024
    rw [e1]
    omega

/-- THE OUTPUT MATRIX after the run: the row-wise layer normalisation of the three matrices. -/
theorem final (c : Dev nD) : (dats m 0 c).arrAt 3 cfg0.N = lnMat (xmat m c) (gmat m c) (bmat m c) :=
  (dats m 0 c).arrAt_eq_of_cover 3 _ (fun t _ => flushed_eq m c t) cover

/-! ## The host lines around the region -/

/-- The input matrix is the input argument recast to `[8192, 1024]`. -/
theorem xmat_eq (c : Dev nD) :
    xmat m c = shapeCast S8192x1024 (m ((c : Thread nD τ).loc main_arg0) : S4x2048x1024.Idx → EReal) shapeCasts_S4x2048x1024_S8192x1024 := by
  show StableHlo.after hostOps0 (fun b => m (c, b)) (Proc.devRef .tc main_v0) = _
  after_results
  rfl

/-- The scale matrix is the scale argument recast. -/
theorem gmat_eq (c : Dev nD) :
    gmat m c = shapeCast S8192x1024 (m ((c : Thread nD τ).loc main_arg1) : S4x2048x1024.Idx → EReal) shapeCasts_S4x2048x1024_S8192x1024 := by
  show StableHlo.after hostOps0 (fun b => m (c, b)) (Proc.devRef .tc main_v1) = _
  after_results
  rfl

/-- The shift matrix is the shift argument recast. -/
theorem bmat_eq (c : Dev nD) :
    bmat m c = shapeCast S8192x1024 (m ((c : Thread nD τ).loc main_arg2) : S4x2048x1024.Idx → EReal) shapeCasts_S4x2048x1024_S8192x1024 := by
  show StableHlo.after hostOps0 (fun b => m (c, b)) (Proc.devRef .tc main_v2) = _
  after_results
  rfl

/-- The result buffer after the line that follows the region: the output matrix cast back to `[4, 2048, 1024]`. -/
theorem tail_eq (c : Dev nD) :
    (Pipeline.afterTail₀ cfgs (dats m) 0 (V0 m) [hostOps1] c main_v4 : S4x2048x1024.Idx → EReal)
      = shapeCast S4x2048x1024 (lnMat (xmat m c) (gmat m c) (bmat m c)) shapeCasts_S8192x1024_S4x2048x1024 := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 3).trans (final m c)
  show (fun i => shapeCast S4x2048x1024 (Pipeline.withArrays spec0 c (V0 m c) (fun w => (dats m 0 c).arrAt w cfg0.N) (Proc.devRef .tc main_v3)) shapeCasts_S8192x1024_S4x2048x1024 i) = _
  rw [show Pipeline.withArrays spec0 c (V0 m c) (fun w => (dats m 0 c).arrAt w cfg0.N) (Proc.devRef .tc main_v3) = lnMat (xmat m c) (gmat m c) (bmat m c) from e]

/-- Entry `(a, s, q)` of the result: the layer normalisation of row `(a, s)` of the input argument at column `q`. -/
theorem result_eq (c : Dev nD) :
    (Pipeline.afterTail₀ cfgs (dats m) 0 (V0 m) [hostOps1] c main_v4 : S4x2048x1024.Idx → EReal)
      = lnArr (m ((c : Thread nD τ).loc main_arg0)) (m ((c : Thread nD τ).loc main_arg1)) (m ((c : Thread nD τ).loc main_arg2)) := by
  rw [tail_eq]
  refine eq_lnArr_of_apply _ _ _ _ fun a s q => ?_
  have hr : a.val * 2048 + s.val < 8192 := by have := a.isLt; have := s.isLt; omega
  rw [shapeCast_rc_abc_apply _ shapeCasts_S8192x1024_S4x2048x1024 a s q ⟨a.val * 2048 + s.val, hr⟩ rfl, lnMat_apply,
    xmat_eq, gmat_eq, bmat_eq]
  have hx : ∀ k : Fin 1024, shapeCast S8192x1024 (m ((c : Thread nD τ).loc main_arg0) : S4x2048x1024.Idx → EReal) shapeCasts_S4x2048x1024_S8192x1024 (ix2 (⟨a.val * 2048 + s.val, hr⟩ : Fin 8192) k)
      = (m ((c : Thread nD τ).loc main_arg0) : S4x2048x1024.Idx → EReal) (ix3 a s k) :=
    fun k => shapeCast_abc_rc_apply _ shapeCasts_S4x2048x1024_S8192x1024 a s k ⟨a.val * 2048 + s.val, hr⟩ rfl
  rw [funext hx, hx q,
    shapeCast_abc_rc_apply _ shapeCasts_S4x2048x1024_S8192x1024 a s q ⟨a.val * 2048 + s.val, hr⟩ rfl,
    shapeCast_abc_rc_apply _ shapeCasts_S4x2048x1024_S8192x1024 a s q ⟨a.val * 2048 + s.val, hr⟩ rfl]

/-! ## The run, read -/

/-- The frame run re-posted: the result buffer at the layer normalisation of the arguments, the arguments unchanged. -/
theorem run : θ_run defs (onTc (τ := τ) (main (F := Ideal))) ⟨m, fun _ => 0, ρ⟩ fun r => ∀ c : Dev nD,
      r.2.mem ((c.tc : Thread nD τ).loc main_v4)
          = lnArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.RefRun.lean ====
/-
  The reference program's run, read back.

  Its @main is a straight line of host operations once the two outlined functions (the variance, and the selection
  inside it) are unfolded at their calls: thirty-seven operations, listed here in order. Every weakly fair execution
  terminates, the three arguments end unchanged, and the result buffer ends at the operations' composed term of the
  arguments: the input less its row mean, times the inverse square root of the row variance plus `ε`, times the scale,
  plus the shift — with the variance as jax writes it: the sum of squared deviations over `1024 - ddof`, selected
  against a not-a-number where that count is not positive.
-/
import proofs.«108471_j37855841747141_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The result as a function of the arguments -/

/-- The row means as an `[4, 2048, 1]` column: each row's sum from zero, over 1024. -/
def meanCol (X : FVec F S4x2048x1024 .f32) : FVec F S4x2048x1 .f32 :=
  Host.divf
    (broadcastInDim S4x2048x1 ![0, 1] bcast_S4x2048_S4x2048x1_0_1
      (Host.reduceAdd X (constant S_ .f32 0x00000000#32) reducesTo_S4x2048x1024_S4x2048_d2 h_S_))
    (broadcastInDim S4x2048x1 ![] bcast_S_S4x2048x1 (constant S_ .f32 0x44800000#32))

/-- The input less its row mean. -/
def centered (X : FVec F S4x2048x1024 .f32) : FVec F S4x2048x1024 .f32 :=
  subf X (broadcastInDim S4x2048x1024 ![0, 1, 2] bcast_S4x2048x1_S4x2048x1024_0_1_2 (meanCol X))

/-- The count the variance divides by: 1024 less the degrees of freedom taken off, here the integer zero. -/
def count : FVec F S_ .f32 :=
  subf (constant S_ .f32 0x44800000#32) (sitofp .f32 (constantI S_ 32 0#32))

/-- The row variances as a column: the sum of squared deviations over the count, where the count is positive. -/
def varCol (X : FVec F S4x2048x1024 .f32) : FVec F S4x2048x1 .f32 :=
  select (broadcastInDim S4x2048x1 ![] bcast_S_S4x2048x1 (cmpf .ogt (count (F := F)) (constant S_ .f32 0x00000000#32)))
    (Host.divf
      (broadcastInDim S4x2048x1 ![0, 1] bcast_S4x2048_S4x2048x1_0_1
        (Host.reduceAdd (mulf (centered X) (centered X)) (constant S_ .f32 0x00000000#32)
          reducesTo_S4x2048x1024_S4x2048_d2 h_S_))
      (broadcastInDim S4x2048x1 ![] bcast_S_S4x2048x1 (count (F := F))))
    (broadcastInDim S4x2048x1 ![] bcast_S_S4x2048x1 (id (constant S_ .f32 0x7FC00000#32)))

/-- The reference's result: the normalised input, scaled and shifted entry by entry. -/
def refOut (X G B : FVec F S4x2048x1024 .f32) : FVec F S4x2048x1024 .f32 :=
  addf
    (mulf
      (mulf (centered X)
        (broadcastInDim S4x2048x1024 ![0, 1, 2] bcast_S4x2048x1_S4x2048x1024_0_1_2
          (Host.rsqrt (addf (varCol X) (broadcastInDim S4x2048x1 ![] bcast_S_S4x2048x1 (constant S_ .f32 0x36A7C5AC#32))))))
      G)
    B

/-! ## The operations -/

/-- @main's operations in order, the calls unfolded: seven of its own (the row means), the variance function's twenty
    (its own row means, the squared deviations, the count, their quotient, the test of the count, the not-a-number),
    the selection's three inside it, and the last ten of @main. -/
abbrev ops : List (HloOp τ sig (Elt F)) :=
  [ nullary main_cst (constant S_ .f32 0x00000000#32),
    binary main_arg0 main_cst main_v0 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x44800000#32),
    unary main_cst_0 main_v2 (broadcastInDim S4x2048x1 ![] bcast_S_S4x2048x1 : (⟨S_, .f32⟩ : BufTy).Contents (Elt F) → (⟨S4x2048x1, .f32⟩ : BufTy).Contents (Elt F)),
    binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S4x2048x1024_S4x2048_d2 h_S_),
    TRef.unary main_call0.v0 main_call0.v1 (broadcastInDim S4x2048x1 ![0, 1] bcast_S4x2048_S4x2048x1_0_1),
    TRef.nullary main_call0.cst_0 (constant S_ .f32 0x44800000#32),
    TRef.unary main_call0.cst_0 main_call0.v2 (broadcastInDim S4x2048x1 ![] bcast_S_S4x2048x1),
    TRef.binary main_call0.v1 main_call0.v2 main_call0.v3 Host.divf,
    TRef.unary main_call0.v3 main_call0.v4 (broadcastInDim S4x2048x1024 ![0, 1, 2] bcast_S4x2048x1_S4x2048x1024_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x2048x1024_S4x2048_d2 h_S_),
    TRef.unary main_call0.v9 main_call0.v10 (broadcastInDim S4x2048x1 ![0, 1] bcast_S4x2048_S4x2048x1_0_1),
    TRef.unary main_call0.v8 main_call0.v11 (broadcastInDim S4x2048x1 ![] bcast_S_S4x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x2048x1 ![] bcast_S_S4x2048x1),
    TRef.ternary main_call0.v13 main_call0.v12 main_call0.call0.v1 main_call0.call0.v2 (fun p a b => select (broadcastInDim S4x2048x1 ![] bcast_S_S4x2048x1 p) a b),
    unary main_v3 main_v5 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_arg0 main_v5 main_v6 (subf : (⟨S4x2048x1024, .f32⟩ : BufTy).Contents (Elt F) → (⟨S4x2048x1024, .f32⟩ : BufTy).Contents (Elt F) → (⟨S4x2048x1024, .f32⟩ : BufTy).Contents (Elt F)),
    nullary main_cst_1 (constant S_ .f32 0x36A7C5AC#32),
    unary main_cst_1 main_v7 (broadcastInDim S4x2048x1 ![] bcast_S_S4x2048x1 : (⟨S_, .f32⟩ : BufTy).Contents (Elt F) → (⟨S4x2048x1, .f32⟩ : BufTy).Contents (Elt F)),
    binary main_v4 main_v7 main_v8 (addf : (⟨S4x2048x1, .f32⟩ : BufTy).Contents (Elt F) → (⟨S4x2048x1, .f32⟩ : BufTy).Contents (Elt F) → (⟨S4x2048x1, .f32⟩ : BufTy).Contents (Elt F)),
    unary main_v8 main_v9 (Host.rsqrt : (⟨S4x2048x1, .f32⟩ : BufTy).Contents (Elt F) → (⟨S4x2048x1, .f32⟩ : BufTy).Contents (Elt F)),
    unary main_v9 main_v10 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v6 main_v10 main_v11 (mulf : (⟨S4x2048x1024, .f32⟩ : BufTy).Contents (Elt F) → (⟨S4x2048x1024, .f32⟩ : BufTy).Contents (Elt F) → (⟨S4x2048x1024, .f32⟩ : BufTy).Contents (Elt F)),
    binary main_v11 main_arg1 main_v12 (mulf : (⟨S4x2048x1024, .f32⟩ : BufTy).Contents (Elt F) → (⟨S4x2048x1024, .f32⟩ : BufTy).Contents (Elt F) → (⟨S4x2048x1024, .f32⟩ : BufTy).Contents (Elt F)),
    binary main_v12 main_arg2 main_v13 (addf : (⟨S4x2048x1024, .f32⟩ : BufTy).Contents (Elt F) → (⟨S4x2048x1024, .f32⟩ : BufTy).Contents (Elt F) → (⟨S4x2048x1024, .f32⟩ : BufTy).Contents (Elt F)) ]

set_option maxRecDepth 2048 in
/-- @main is that straight line: the two functions' definitions unfolded at their calls and the records at their fields,
    both sides are one chain of steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub ..⟩

/-! ## What the buffers hold after the line -/

attribute [local irreducible] Host.reduceAdd Host.divf Host.rsqrt broadcastInDim in
set_option maxRecDepth 8192 in
set_option maxHeartbeats 800000 in
/-- The fold at the result buffer is `refOut` of the arguments, by computation: the fold unrolled, each operation's
    result decided at its own buffer, the typed references' casts the identity at these literal references. -/
theorem out_eq (V : Valuation τ sig (Elt F)) :
    after ops V (main_v13 : DevRef τ sig)
      = refOut (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The run -/

/-- On the one device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result, entry by entry.

  Entry `(a, s, q)` of the reference's result is the layer normalisation of row `(a, s)` of the input at column `q`,
  scaled and shifted by the same entry of the other two arguments. The host's row sums start from the word of zero,
  which adds nothing; the variance's divisor `1024 - 0` is 1024, and being positive it selects the quotient, never the
  not-a-number.
-/
import proofs.«108471_j37855841747141_1_alg».proof.Proof.RefRun
import proofs.«108471_j37855841747141_1_alg».proof.Proof.LayerNormRow
import proofs.«108471_j37855841747141_1_alg».proof.Proof.LibRowForms
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.RefRun Idealize.ShloMosaic
  Idealize.ShloMosaic.ValueIdx Cert.LayerNormRow Cert.LibRowForms

/-- The host's quotient at an index is the exact division of the entries. -/
theorem hostDivf_apply {S : Shape} {φ : FTy} (a b : FVec Ideal S φ) (i : S.Idx) :
    Host.divf a b i = Ideal.div (a i) (b i) := rfl

/-- The host's inverse square root at an index is the exact one of the entry. -/
theorem hostRsqrt_apply {S : Shape} {φ : FTy} (a : FVec Ideal S φ) (i : S.Idx) :
    Host.rsqrt a i = Ideal.rsqrt (a i) := rfl

/-- A signed integer converted to a float is that integer, exactly. -/
theorem sitofp_ideal_apply {S : Shape} {φ : FTy} {w : Nat} (x : IVec S w) (i : S.Idx) :
    (sitofp φ x : FVec Ideal S φ) i = ((((x i).toInt : ℤ) : ℝ) : EReal) := rfl

/-- A comparison of two arrays at an index is the comparison of the entries on the extended reals. -/
theorem cmpf_ideal_apply {S : Shape} {φ : FTy} (p : CmpFPredicate) (a b : FVec Ideal S φ) (i : S.Idx) :
    cmpf p a b i = Ideal.cmp p (a i) (b i) := rfl

/-- The mean column at row `(a, s)` is that row's mean. -/
theorem meanCol_apply (X : FVec Ideal S4x2048x1024 .f32) (a : Fin 4) (s : Fin 2048) (u : Fin 1) :
    meanCol X (ix3 a s u) = rowMean (fun k => X (ix3 a s k)) := by
  unfold meanCol rowMean
  rw [hostDivf_apply, broadcastInDim_ab_ab1_apply, broadcastInDim_scalar_apply, hostReduceAdd_rows3, constant_apply,
    constant_apply, Ideal.ofBits_zero_f32, zero_add]

/-- The centered input at `(a, s, q)` is the entry less its row's mean. -/
theorem centered_apply (X : FVec Ideal S4x2048x1024 .f32) (a : Fin 4) (s : Fin 2048) (q : Fin 1024) :
    centered X (ix3 a s q) = X (ix3 a s q) - rowMean (fun k => X (ix3 a s k)) := by
  unfold centered
  rw [subf_apply, broadcastInDim_ab1_abc_apply, meanCol_apply]

/-- The variance's divisor is the count of entries: 1024 less zero. -/
theorem count_apply : RefRun.count (F := Ideal) ix0 = Ideal.ofBits .f32 0x44800000#32 := by
  unfold RefRun.count
  rw [subf_apply, constant_apply, sitofp_ideal_apply]
  exact count_sub_zero

/-- The variance column at row `(a, s)` is that row's population variance: the count is positive, so the quotient
    is selected. -/
theorem varCol_apply (X : FVec Ideal S4x2048x1024 .f32) (a : Fin 4) (s : Fin 2048) (u : Fin 1) :
    varCol X (ix3 a s u) = rowVar (fun k => X (ix3 a s k)) := by
  unfold varCol rowVar
  rw [select_apply, broadcastInDim_scalar_apply, cmpf_ideal_apply, count_apply, constant_apply, count_pos, select_one,
    hostDivf_apply, broadcastInDim_ab_ab1_apply, broadcastInDim_scalar_apply, count_apply, hostReduceAdd_rows3,
    constant_apply, Ideal.ofBits_zero_f32, zero_add]
  refine congrArg (fun t => Ideal.div t _) (Finset.sum_congr rfl fun k _ => ?_)
  rw [mulf_apply, centered_apply]

/-- Entry `(a, s, q)` of the reference's result is the layer normalisation of row `(a, s)` at column `q`. -/
theorem refOut_apply (X G B : FVec Ideal S4x2048x1024 .f32) (a : Fin 4) (s : Fin 2048) (q : Fin 1024) :
    refOut X G B (ix3 a s q)
      = rowLN (fun k => X (ix3 a s k)) (X (ix3 a s q)) (G (ix3 a s q)) (B (ix3 a s q)) := by
  unfold refOut rowLN
  rw [addf_apply, mulf_apply, mulf_apply, centered_apply, broadcastInDim_ab1_abc_apply, hostRsqrt_apply, addf_apply,
    varCol_apply, broadcastInDim_scalar_apply, constant_apply]

/-- So the reference's result is the layer normalisation of the arguments along the last axis. -/
theorem refOut_eq (X G B : FVec Ideal S4x2048x1024 .f32) : refOut X G B = lnArr X G B :=
  eq_lnArr_of_apply _ _ _ _ (refOut_apply X G B)

end Cert.ReferenceIdeal.RefValue

end
-- ==== Proof.lean ====
/-
  The certificate of a layer-normalisation kernel against its jnp reference, over the extended reals.

  Both programs take an input, a scale and a shift of shape `[4, 2048, 1024]` and return, entry by entry,
  `((x - mean) * (variance + ε)^(-1/2)) * scale + shift`, mean and variance taken along the last axis (1024 entries,
  the population variance). The kernel recasts the arguments to `[8192, 1024]` matrices, normalises sixteen blocks of
  512 rows each, and casts the result back; the reference computes the row means and variances on the host, the
  variance through a function that divides by `1024 - 0` and guards the quotient by a test that this count is positive.
  At the exact instance both results are ONE function of the arguments, `lnArr`: the same sums, the same divisor word,
  the same `ε` word, the same inverse square root; no law of arithmetic beyond `0 + s = s` and `n - 0 = n` joins
  them, so the finiteness of the inputs is not used.

  The two kernel frames are the generated ones; the reference's frame is its run with the result dropped; the
  idealisation rewrote nothing, so there is nothing to preserve.
-/
import proofs.«108471_j37855841747141_1_alg».proof.Defs
import proofs.«108471_j37855841747141_1_alg».proof.Proof.Gen.Kernel
import proofs.«108471_j37855841747141_1_alg».proof.Proof.Gen.Kernel.Skeleton
import proofs.«108471_j37855841747141_1_alg».proof.Proof.Gen.Kernel.Launch
import proofs.«108471_j37855841747141_1_alg».proof.Proof.Gen.Kernel.Points
import proofs.«108471_j37855841747141_1_alg».proof.Proof.Gen.Kernel.Frame
import proofs.«108471_j37855841747141_1_alg».proof.Proof.Gen.KernelIdeal
import proofs.«108471_j37855841747141_1_alg».proof.Proof.Gen.KernelIdeal.Skeleton
import proofs.«108471_j37855841747141_1_alg».proof.Proof.Gen.KernelIdeal.Launch
import proofs.«108471_j37855841747141_1_alg».proof.Proof.Gen.KernelIdeal.Points
import proofs.«108471_j37855841747141_1_alg».proof.Proof.Gen.KernelIdeal.Frame
import proofs.«108471_j37855841747141_1_alg».proof.Proof.Gen.ReferenceIdeal
import proofs.«108471_j37855841747141_1_alg».proof.Proof.Gen.Pre_finite_inputs
import proofs.«108471_j37855841747141_1_alg».proof.Proof.KernelArray
import proofs.«108471_j37855841747141_1_alg».proof.Proof.RefValue
import Idealize.ShloMosaic.Adequacy
import Idealize.ShloMosaic.Init

noncomputable section

namespace Cert.Proof

open Idealize.ShloMosaic Idealize.SL.Sem Cert.LayerNormRow

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the three arguments both programs end with the result at `lnArr` of the arguments:
    the kernel's blocks tile that function, and the reference's composed term reads as it index by index. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.refOut_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
